-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S2048x256 : Shape := ⟨2, ![2048, 256]⟩
abbrev S_ : Shape := ⟨0, ![]⟩

class Facts : Prop where

variable [Facts]

def fn {F : FTy → Type} [FloatOps F] (main_arg0 : IVec S2048x256 32) : IVec S_ 1 :=
  let main_c : IVec S_ 1 := constantI S_ 1 1#1
  main_c
-- ==== Kernel.lean ====
abbrev S2048x256 : Shape := ⟨2, ![2048, 256]⟩
abbrev S1024x256 : Shape := ⟨2, ![1024, 256]⟩

abbrev nBuf : Space → Nat
  | .hbm => 2
  | .vmem => 4
  | .smem => 0
  | _ => 0

abbrev bufTy : (tb : Table) → Fin (tcTables nBuf tb) → BufTy
  | .hbm, ⟨0, _⟩ => ⟨S2048x256, .i32⟩
  | .hbm, ⟨1, _⟩ => ⟨S2048x256, .i32⟩
  | .local _ .vmem, ⟨0, _⟩ => ⟨S1024x256, .i32⟩
  | .local _ .vmem, ⟨1, _⟩ => ⟨S1024x256, .i32⟩
  | .local _ .vmem, ⟨2, _⟩ => ⟨S1024x256, .i32⟩
  | .local _ .vmem, ⟨3, _⟩ => ⟨S1024x256, .i32⟩
  | _, _ => ⟨S2048x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  rotates_S1024x256_d1 : S1024x256.Rotates 1 none
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S2048x256.size a
  hwx0_0 : ∀ i : grid0.Coords, EltTy.bits .i32 = 32 ∨ (Rect.block (s := S2048x256) S1024x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S2048x256.size a
  hwx0_1 : ∀ i : grid0.Coords, EltTy.bits .i32 = 32 ∨ (Rect.block (s := S2048x256) S1024x256.size (cc0_transform_1 i) (hinb0_1 i)).WholeWords (EltTy.packing .i32)

variable [Facts₀]

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x256 : Shape := ⟨2, ![2048, 256]⟩
abbrev S32 : Shape := ⟨1, ![32]⟩
abbrev S_ : Shape := ⟨0, ![]⟩
abbrev S2048x256x1 : Shape := ⟨3, ![2048, 256, 1]⟩
abbrev S1x1x32 : Shape := ⟨3, ![1, 1, 32]⟩
abbrev S2048x256x32 : Shape := ⟨3, ![2048, 256, 32]⟩
abbrev S2048x8192 : Shape := ⟨2, ![2048, 8192]⟩
abbrev S2048x0 : Shape := ⟨2, ![2048, 0]⟩
abbrev S2048x1 : Shape := ⟨2, ![2048, 1]⟩
abbrev S2048x8191 : Shape := ⟨2, ![2048, 8191]⟩
abbrev S2048x2 : Shape := ⟨2, ![2048, 2]⟩
abbrev S2048x8190 : Shape := ⟨2, ![2048, 8190]⟩
abbrev S2048x3 : Shape := ⟨2, ![2048, 3]⟩
abbrev S2048x8189 : Shape := ⟨2, ![2048, 8189]⟩
abbrev S2048x4 : Shape := ⟨2, ![2048, 4]⟩
abbrev S2048x8188 : Shape := ⟨2, ![2048, 8188]⟩
abbrev S2048x5 : Shape := ⟨2, ![2048, 5]⟩
abbrev S2048x8187 : Shape := ⟨2, ![2048, 8187]⟩
abbrev S2048x6 : Shape := ⟨2, ![2048, 6]⟩
abbrev S2048x8186 : Shape := ⟨2, ![2048, 8186]⟩
abbrev S2048x7 : Shape := ⟨2, ![2048, 7]⟩
abbrev S2048x8185 : Shape := ⟨2, ![2048, 8185]⟩
abbrev S2048x8 : Shape := ⟨2, ![2048, 8]⟩
abbrev S2048x8184 : Shape := ⟨2, ![2048, 8184]⟩
abbrev S2048x1x8192 : Shape := ⟨3, ![2048, 1, 8192]⟩
abbrev S2048x9x8192 : Shape := ⟨3, ![2048, 9, 8192]⟩
abbrev S2048x9x256x32 : Shape := ⟨4, ![2048, 9, 256, 32]⟩
abbrev S1x1x1x32 : Shape := ⟨4, ![1, 1, 1, 32]⟩
abbrev S2048x9x256 : Shape := ⟨3, ![2048, 9, 256]⟩
abbrev S2048x3x3x256 : Shape := ⟨4, ![2048, 3, 3, 256]⟩
abbrev S2048x3x1x256 : Shape := ⟨4, ![2048, 3, 1, 256]⟩
abbrev S2048x3x256 : Shape := ⟨3, ![2048, 3, 256]⟩
abbrev S2048x1x3x256 : Shape := ⟨4, ![2048, 1, 3, 256]⟩
abbrev S2048x1x1x256 : Shape := ⟨4, ![2048, 1, 1, 256]⟩
abbrev S2048x1x256 : Shape := ⟨3, ![2048, 1, 256]⟩

abbrev nBuf : Space → Nat
  | .hbm => 92
  | .vmem => 0
  | .smem => 0
  | _ => 0

abbrev bufTy : (tb : Table) → Fin (tcTables nBuf tb) → BufTy
  | .hbm, ⟨0, _⟩ => ⟨S2048x256, .i32⟩
  | .hbm, ⟨1, _⟩ => ⟨S32, .i32⟩
  | .hbm, ⟨2, _⟩ => ⟨S_, .i32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S2048x256x1, .i32⟩
  | .hbm, ⟨9, _⟩ => ⟨S1x1x32, .i32⟩
  | .hbm, ⟨10, _⟩ => ⟨S2048x256x32, .i32⟩
  | .hbm, ⟨11, _⟩ => ⟨S2048x256x32, .i32⟩
  | .hbm, ⟨12, _⟩ => ⟨S2048x256x32, .i32⟩
  | .hbm, ⟨13, _⟩ => ⟨S_, .i32⟩
  | .hbm, ⟨14, _⟩ => ⟨S2048x256x32, .i32⟩
  | .hbm, ⟨15, _⟩ => ⟨S2048x256x32, .i32⟩
  | .hbm, ⟨16, _⟩ => ⟨S2048x8192, .i32⟩
  | .hbm, ⟨17, _⟩ => ⟨S2048x8192, .i32⟩
  | .hbm, ⟨18, _⟩ => ⟨S2048x0, .i32⟩
  | .hbm, ⟨19, _⟩ => ⟨S2048x8192, .i32⟩
  | .hbm, ⟨20, _⟩ => ⟨S2048x1, .i32⟩
  | .hbm, ⟨21, _⟩ => ⟨S2048x8191, .i32⟩
  | .hbm, ⟨22, _⟩ => ⟨S2048x8192, .i32⟩
  | .hbm, ⟨23, _⟩ => ⟨S2048x2, .i32⟩
  | .hbm, ⟨24, _⟩ => ⟨S2048x8190, .i32⟩
  | .hbm, ⟨25, _⟩ => ⟨S2048x8192, .i32⟩
  | .hbm, ⟨26, _⟩ => ⟨S2048x3, .i32⟩
  | .hbm, ⟨27, _⟩ => ⟨S2048x8189, .i32⟩
  | .hbm, ⟨28, _⟩ => ⟨S2048x8192, .i32⟩
  | .hbm, ⟨29, _⟩ => ⟨S2048x4, .i32⟩
  | .hbm, ⟨30, _⟩ => ⟨S2048x8188, .i32⟩
  | .hbm, ⟨31, _⟩ => ⟨S2048x8192, .i32⟩
  | .hbm, ⟨32, _⟩ => ⟨S2048x5, .i32⟩
  | .hbm, ⟨33, _⟩ => ⟨S2048x8187, .i32⟩
  | .hbm, ⟨34, _⟩ => ⟨S2048x8192, .i32⟩
  | .hbm, ⟨35, _⟩ => ⟨S2048x6, .i32⟩
  | .hbm, ⟨36, _⟩ => ⟨S2048x8186, .i32⟩
  | .hbm, ⟨37, _⟩ => ⟨S2048x8192, .i32⟩
  | .hbm, ⟨38, _⟩ => ⟨S2048x7, .i32⟩
  | .hbm, ⟨39, _⟩ => ⟨S2048x8185, .i32⟩
  | .hbm, ⟨40, _⟩ => ⟨S2048x8192, .i32⟩
  | .hbm, ⟨41, _⟩ => ⟨S2048x8, .i32⟩
  | .hbm, ⟨42, _⟩ => ⟨S2048x8184, .i32⟩
  | .hbm, ⟨43, _⟩ => ⟨S2048x8192, .i32⟩
  | .hbm, ⟨44, _⟩ => ⟨S2048x1x8192, .i32⟩
  | .hbm, ⟨45, _⟩ => ⟨S2048x1x8192, .i32⟩
  | .hbm, ⟨46, _⟩ => ⟨S2048x1x8192, .i32⟩
  | .hbm, ⟨47, _⟩ => ⟨S2048x1x8192, .i32⟩
  | .hbm, ⟨48, _⟩ => ⟨S2048x1x8192, .i32⟩
  | .hbm, ⟨49, _⟩ => ⟨S2048x1x8192, .i32⟩
  | .hbm, ⟨50, _⟩ => ⟨S2048x1x8192, .i32⟩
  | .hbm, ⟨51, _⟩ => ⟨S2048x1x8192, .i32⟩
  | .hbm, ⟨52, _⟩ => ⟨S2048x1x8192, .i32⟩
  | .hbm, ⟨53, _⟩ => ⟨S2048x9x8192, .i32⟩
  | .hbm, ⟨54, _⟩ => ⟨S32, .i32⟩
  | .hbm, ⟨55, _⟩ => ⟨S_, .i32⟩
  | .hbm, ⟨56, _⟩ => ⟨S32, .i32⟩
  | .hbm, ⟨57, _⟩ => ⟨S32, .i32⟩
  | .hbm, ⟨58, _⟩ => ⟨S_, .i32⟩
  | .hbm, ⟨59, _⟩ => ⟨S32, .i32⟩
  | .hbm, ⟨60, _⟩ => ⟨S32, .i32⟩
  | .hbm, ⟨61, _⟩ => ⟨S2048x9x256x32, .i32⟩
  | .hbm, ⟨62, _⟩ => ⟨S1x1x1x32, .i32⟩
  | .hbm, ⟨63, _⟩ => ⟨S2048x9x256x32, .i32⟩
  | .hbm, ⟨64, _⟩ => ⟨S2048x9x256x32, .i32⟩
  | .hbm, ⟨65, _⟩ => ⟨S_, .i32⟩
  | .hbm, ⟨66, _⟩ => ⟨S2048x9x256, .i32⟩
  | .hbm, ⟨67, _⟩ => ⟨S2048x3x3x256, .i32⟩
  | .hbm, ⟨68, _⟩ => ⟨S2048x3x1x256, .i32⟩
  | .hbm, ⟨69, _⟩ => ⟨S2048x3x256, .i32⟩
  | .hbm, ⟨70, _⟩ => ⟨S2048x3x1x256, .i32⟩
  | .hbm, ⟨71, _⟩ => ⟨S2048x3x256, .i32⟩
  | .hbm, ⟨72, _⟩ => ⟨S2048x3x1x256, .i32⟩
  | .hbm, ⟨73, _⟩ => ⟨S2048x3x256, .i32⟩
  | .hbm, ⟨74, _⟩ => ⟨S2048x3x256, .i32⟩
  | .hbm, ⟨75, _⟩ => ⟨S2048x3x256, .i32⟩
  | .hbm, ⟨76, _⟩ => ⟨S2048x3x256, .i32⟩
  | .hbm, ⟨77, _⟩ => ⟨S2048x3x256, .i32⟩
  | .hbm, ⟨78, _⟩ => ⟨S2048x3x256, .i32⟩
  | .hbm, ⟨79, _⟩ => ⟨S2048x1x3x256, .i32⟩
  | .hbm, ⟨80, _⟩ => ⟨S2048x1x1x256, .i32⟩
  | .hbm, ⟨81, _⟩ => ⟨S2048x1x256, .i32⟩
  | .hbm, ⟨82, _⟩ => ⟨S2048x1x1x256, .i32⟩
  | .hbm, ⟨83, _⟩ => ⟨S2048x1x256, .i32⟩
  | .hbm, ⟨84, _⟩ => ⟨S2048x1x1x256, .i32⟩
  | .hbm, ⟨85, _⟩ => ⟨S2048x1x256, .i32⟩
  | .hbm, ⟨86, _⟩ => ⟨S2048x1x256, .i32⟩
  | .hbm, ⟨87, _⟩ => ⟨S2048x1x256, .i32⟩
  | .hbm, ⟨88, _⟩ => ⟨S2048x1x256, .i32⟩
  | .hbm, ⟨89, _⟩ => ⟨S2048x1x256, .i32⟩
  | .hbm, ⟨90, _⟩ => ⟨S2048x1x256, .i32⟩
  | .hbm, ⟨91, _⟩ => ⟨S2048x256, .i32⟩
  | _, _ => ⟨S2048x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_v1 : Ref sig .tc := ⟨.hbm, 18, rfl⟩
abbrev main_v13 : Ref sig .tc := ⟨.hbm, 19, rfl⟩
abbrev main_call1_v0 : Ref sig .tc := ⟨.hbm, 20, rfl⟩
abbrev main_call1_v1 : Ref sig .tc := ⟨.hbm, 21, rfl⟩
abbrev main_v14 : Ref sig .tc := ⟨.hbm, 22, rfl⟩
abbrev main_call2_v0 : Ref sig .tc := ⟨.hbm, 23, rfl⟩
abbrev main_call2_v1 : Ref sig .tc := ⟨.hbm, 24, rfl⟩
abbrev main_v15 : Ref sig .tc := ⟨.hbm, 25, rfl⟩
abbrev main_call3_v0 : Ref sig .tc := ⟨.hbm, 26, rfl⟩
abbrev main_call3_v1 : Ref sig .tc := ⟨.hbm, 27, rfl⟩
abbrev main_v16 : Ref sig .tc := ⟨.hbm, 28, rfl⟩
abbrev main_call4_v0 : Ref sig .tc := ⟨.hbm, 29, rfl⟩
abbrev main_call4_v1 : Ref sig .tc := ⟨.hbm, 30, rfl⟩
abbrev main_v17 : Ref sig .tc := ⟨.hbm, 31, rfl⟩
abbrev main_call5_v0 : Ref sig .tc := ⟨.hbm, 32, rfl⟩
abbrev main_call5_v1 : Ref sig .tc := ⟨.hbm, 33, rfl⟩
abbrev main_v18 : Ref sig .tc := ⟨.hbm, 34, rfl⟩
abbrev main_call6_v0 : Ref sig .tc := ⟨.hbm, 35, rfl⟩
abbrev main_call6_v1 : Ref sig .tc := ⟨.hbm, 36, rfl⟩
abbrev main_v19 : Ref sig .tc := ⟨.hbm, 37, rfl⟩
abbrev main_call7_v0 : Ref sig .tc := ⟨.hbm, 38, rfl⟩
abbrev main_call7_v1 : Ref sig .tc := ⟨.hbm, 39, rfl⟩
abbrev main_v20 : Ref sig .tc := ⟨.hbm, 40, rfl⟩
abbrev main_call8_v0 : Ref sig .tc := ⟨.hbm, 41, rfl⟩
abbrev main_call8_v1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_2 : Ref sig .tc := ⟨.hbm, 55, rfl⟩
abbrev main_v33 : Ref sig .tc := ⟨.hbm, 56, rfl⟩
abbrev main_v34 : Ref sig .tc := ⟨.hbm, 57, rfl⟩
abbrev main_c_3 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  bcast_S_S32 : S_.BroadcastsInDim S32 (![] : Fin 0 → Fin S32.rank)
  bcast_S2048x256_S2048x256x1_0_1 : S2048x256.BroadcastsInDim S2048x256x1 (![0, 1] : Fin 2 → Fin S2048x256x1.rank)
  bcast_S32_S1x1x32_2 : S32.BroadcastsInDim S1x1x32 (![2] : Fin 1 → Fin S1x1x32.rank)
  bcast_S2048x256x1_S2048x256x32_0_1_2 : S2048x256x1.BroadcastsInDim S2048x256x32 (![0, 1, 2] : Fin 3 → Fin S2048x256x32.rank)
  bcast_S1x1x32_S2048x256x32_0_1_2 : S1x1x32.BroadcastsInDim S2048x256x32 (![0, 1, 2] : Fin 3 → Fin S2048x256x32.rank)
  bcast_S_S2048x256x32 : S_.BroadcastsInDim S2048x256x32 (![] : Fin 0 → Fin S2048x256x32.rank)
  shapeCasts_S2048x256x32_S2048x8192 : S2048x256x32.ShapeCasts S2048x8192
  slices_S2048x8192_S2048x8192_0_0 : S2048x8192.Slices ![0, 0] S2048x8192
  slices_S2048x8192_S2048x0_0_0 : S2048x8192.Slices ![0, 0] S2048x0
  concatenates_S2048x8192_S2048x0_S2048x8192_d1 : Shape.Concatenates [S2048x8192, S2048x0] S2048x8192 1
  slices_S2048x8192_S2048x1_0_8191 : S2048x8192.Slices ![0, 8191] S2048x1
  slices_S2048x8192_S2048x8191_0_0 : S2048x8192.Slices ![0, 0] S2048x8191
  concatenates_S2048x1_S2048x8191_S2048x8192_d1 : Shape.Concatenates [S2048x1, S2048x8191] S2048x8192 1
  slices_S2048x8192_S2048x2_0_8190 : S2048x8192.Slices ![0, 8190] S2048x2
  slices_S2048x8192_S2048x8190_0_0 : S2048x8192.Slices ![0, 0] S2048x8190
  concatenates_S2048x2_S2048x8190_S2048x8192_d1 : Shape.Concatenates [S2048x2, S2048x8190] S2048x8192 1
  slices_S2048x8192_S2048x3_0_8189 : S2048x8192.Slices ![0, 8189] S2048x3
  slices_S2048x8192_S2048x8189_0_0 : S2048x8192.Slices ![0, 0] S2048x8189
  concatenates_S2048x3_S2048x8189_S2048x8192_d1 : Shape.Concatenates [S2048x3, S2048x8189] S2048x8192 1
  slices_S2048x8192_S2048x4_0_8188 : S2048x8192.Slices ![0, 8188] S2048x4
  slices_S2048x8192_S2048x8188_0_0 : S2048x8192.Slices ![0, 0] S2048x8188
  concatenates_S2048x4_S2048x8188_S2048x8192_d1 : Shape.Concatenates [S2048x4, S2048x8188] S2048x8192 1
  slices_S2048x8192_S2048x5_0_8187 : S2048x8192.Slices ![0, 8187] S2048x5
  slices_S2048x8192_S2048x8187_0_0 : S2048x8192.Slices ![0, 0] S2048x8187
  concatenates_S2048x5_S2048x8187_S2048x8192_d1 : Shape.Concatenates [S2048x5, S2048x8187] S2048x8192 1
  slices_S2048x8192_S2048x6_0_8186 : S2048x8192.Slices ![0, 8186] S2048x6
  slices_S2048x8192_S2048x8186_0_0 : S2048x8192.Slices ![0, 0] S2048x8186
  concatenates_S2048x6_S2048x8186_S2048x8192_d1 : Shape.Concatenates [S2048x6, S2048x8186] S2048x8192 1
  slices_S2048x8192_S2048x7_0_8185 : S2048x8192.Slices ![0, 8185] S2048x7
  slices_S2048x8192_S2048x8185_0_0 : S2048x8192.Slices ![0, 0] S2048x8185
  concatenates_S2048x7_S2048x8185_S2048x8192_d1 : Shape.Concatenates [S2048x7, S2048x8185] S2048x8192 1
  slices_S2048x8192_S2048x8_0_8184 : S2048x8192.Slices ![0, 8184] S2048x8
  slices_S2048x8192_S2048x8184_0_0 : S2048x8192.Slices ![0, 0] S2048x8184
  concatenates_S2048x8_S2048x8184_S2048x8192_d1 : Shape.Concatenates [S2048x8, S2048x8184] S2048x8192 1
  bcast_S2048x8192_S2048x1x8192_0_2 : S2048x8192.BroadcastsInDim S2048x1x8192 (![0, 2] : Fin 2 → Fin S2048x1x8192.rank)
  concatenates_S2048x1x8192_S2048x1x8192_S2048x1x8192_S2048x1x8192_S2048x1x8192_S2048x1x8192_S2048x1x8192_S2048x1x8192_S2048x1x8192_S2048x9x8192_d1 : Shape.Concatenates [S2048x1x8192, S2048x1x8192, S2048x1x8192, S2048x1x8192, S2048x1x8192, S2048x1x8192, S2048x1x8192, S2048x1x8192, S2048x1x8192] S2048x9x8192 1
  shapeCasts_S2048x9x8192_S2048x9x256x32 : S2048x9x8192.ShapeCasts S2048x9x256x32
  bcast_S32_S1x1x1x32_3 : S32.BroadcastsInDim S1x1x1x32 (![3] : Fin 1 → Fin S1x1x1x32.rank)
  bcast_S1x1x1x32_S2048x9x256x32_0_1_2_3 : S1x1x1x32.BroadcastsInDim S2048x9x256x32 (![0, 1, 2, 3] : Fin 4 → Fin S2048x9x256x32.rank)
  reducesTo_S2048x9x256x32_S2048x9x256_d3 : S2048x9x256x32.ReducesTo [3] S2048x9x256
  h_S_ : 0 < S_.numel
  shapeCasts_S2048x9x256_S2048x3x3x256 : S2048x9x256.ShapeCasts S2048x3x3x256
  slices_S2048x3x3x256_S2048x3x1x256_0_0_0_0 : S2048x3x3x256.Slices ![0, 0, 0, 0] S2048x3x1x256
  shapeCasts_S2048x3x1x256_S2048x3x256 : S2048x3x1x256.ShapeCasts S2048x3x256
  slices_S2048x3x3x256_S2048x3x1x256_0_0_1_0 : S2048x3x3x256.Slices ![0, 0, 1, 0] S2048x3x1x256
  slices_S2048x3x3x256_S2048x3x1x256_0_0_2_0 : S2048x3x3x256.Slices ![0, 0, 2, 0] S2048x3x1x256
  shapeCasts_S2048x3x256_S2048x1x3x256 : S2048x3x256.ShapeCasts S2048x1x3x256
  slices_S2048x1x3x256_S2048x1x1x256_0_0_0_0 : S2048x1x3x256.Slices ![0, 0, 0, 0] S2048x1x1x256
  shapeCasts_S2048x1x1x256_S2048x1x256 : S2048x1x1x256.ShapeCasts S2048x1x256
  slices_S2048x1x3x256_S2048x1x1x256_0_0_1_0 : S2048x1x3x256.Slices ![0, 0, 1, 0] S2048x1x1x256
  slices_S2048x1x3x256_S2048x1x1x256_0_0_2_0 : S2048x1x3x256.Slices ![0, 0, 2, 0] S2048x1x1x256
  shapeCasts_S2048x1x256_S2048x256 : S2048x1x256.ShapeCasts S2048x256

variable [Facts₀]

class Facts : Prop extends Facts₀ where

variable [Facts]
-- ==== Proof.Spec.lean ====
/-
  What both programs compute, as ONE function of the input array.
  Each row of the input is a stream of 256·32 bits, word by word, most significant bit first. Nine copies of the stream
  are taken, the s-th rolled right by s bits (s = 0 … 8), and combined bit by bit by a two-level majority vote: the
  majority of each consecutive three copies, then the majority of those three. Bitwise operations act on a packed word
  position by position, and a roll by s < 32 bits moves into each word only bits of that word and of the word before it in
  the row (the last word before the first: the roll is circular). So the result word at lane `q` is a function `vote` of
  the input word `x` at lane `q` and the input word `p` at lane `q - 1` (mod 256): copy `s` contributes
  `x >>> s ||| p <<< (32 - s)`.
-/
import Idealize.ShloMosaic.Lib.ValueIdx

namespace Cert.Spec

open Idealize.ShloMosaic Idealize.ShloMosaic.ValueIdx

/-- The bitwise majority of three words. -/
def maj3 (a b c : BitVec 32) : BitVec 32 := a &&& b ||| a &&& c ||| b &&& c

/-- Word `x` of a row's stream after the stream is rolled right by `s` bits, `p` being the word before `x`. -/
def rolled (x p : BitVec 32) (s : Nat) : BitVec 32 := x >>> s ||| p <<< (32 - s)

/-- The two-level majority vote over the nine rolled copies, at one word. Copy 0 is the word itself. -/
def vote (x p : BitVec 32) : BitVec 32 :=
  maj3 (maj3 x (rolled x p 1) (rolled x p 2))
    (maj3 (rolled x p 3) (rolled x p 4) (rolled x p 5))
    (maj3 (rolled x p 6) (rolled x p 7) (rolled x p 8))

/-- The lane before `q` in a row of 256, circularly. -/
def prevLane (q : Fin 256) : Fin 256 := ⟨(q.val + 255) % 256, Nat.mod_lt _ (by decide)⟩

/-- THE RESULT ARRAY: at row `r`, lane `q`, the vote of the input's words at lanes `q` and `q - 1` of row `r`. -/
def G (W : IVec ⟨2, ![2048, 256]⟩ 32) : IVec ⟨2, ![2048, 256]⟩ 32 :=
  fun i => vote (W i) (W (ix2 (i 0 : Fin 2048) (prevLane (i 1))))

theorem G_apply (W : IVec ⟨2, ![2048, 256]⟩ 32) (r : Fin 2048) (q : Fin 256) :
    G W (ix2 r q) = vote (W (ix2 r q)) (W (ix2 r (prevLane q))) := rfl

end Cert.Spec
-- ==== Proof.KernelWord.lean ====
/-
  The kernel's stored value at one element. The body loads a block `x0` of 1024 rows by all 256 lanes, rotates it by one
  lane within each row (lane `q` then holds what lane `q - 1` held, circularly: the block spans the whole row), forms
  for s = 1 … 8 the word `x >>> s ||| neighbour <<< (32 - s)`, and takes the two-level majority. All of it acts lane by
  lane, so at row `p`, lane `q` of the block it is `Spec.vote` of the block's words at lanes `q` and `q - 1` of row `p`.
-/
import proofs.«404971_j67250597921093_3_alg».proof.Proof.Gen.KernelIdeal.Skeleton
import proofs.«404971_j67250597921093_3_alg».proof.Proof.Spec
import Idealize.ShloMosaic.Lib.KernelVsHost

noncomputable section

namespace Cert.KernelIdeal.Word

open Cert.KernelIdeal Cert.KernelIdeal.Gen Idealize.ShloMosaic Idealize.ShloMosaic.ValueIdx

variable {F : FTy → Type} [FloatOps F]

/-- On the vector unit a logical shift right by a literal amount below 32 is the shift. -/
theorem vshrui_lit (a : BitVec 32) (n : Nat) (hn : n < 32) : IntOp.shrui .vector a (BitVec.ofNat 32 n) = a >>> n := by
  have h : (BitVec.ofNat 32 n).toNat = n := by rw [BitVec.toNat_ofNat]; omega
  unfold IntOp.shrui
  rw [if_pos (by rw [h]; exact hn), BitVec.ushiftRight_eq', h]

/-- The same of a shift left. -/
theorem vshli_lit (a : BitVec 32) (n : Nat) (hn : n < 32) : IntOp.shli .vector a (BitVec.ofNat 32 n) = a <<< n := by
  have h : (BitVec.ofNat 32 n).toNat = n := by rw [BitVec.toNat_ofNat]; omega
  unfold IntOp.shli
  rw [if_pos (by rw [h]; exact hn), BitVec.shiftLeft_eq', h]

/-- The rotation by one lane: lane `q` of the rotated block holds lane `q - 1` (mod 256) of the block, row by row. -/
theorem rotate_apply (x : IVec S1024x256 32) (p : Fin 1024) (q : Fin 256) :
    dynamicRotate 1 1#32 none x rotates_S1024x256_d1 (ix2 p q) = x (ix2 p (Spec.prevLane q)) :=
  dynamicRotate_apply (1 : Fin 2) 1#32 x rotates_S1024x256_d1 (ix2 p q) (ix2 p (Spec.prevLane q)) (fun b =>
    match b with
    | ⟨0, _⟩ => rfl
    | ⟨1, _⟩ => by
      show (q.val + 255) % 256 = (q.val + 256 - 1 % 256) % 256
      have := q.isLt; omega)

/-- THE STORED VALUE AT AN ELEMENT: the vote of the block's words at the element's lane and the lane before it. -/
theorem payload_apply (x0 : Vec F S1024x256 .i32) (p : Fin 1024) (q : Fin 256) :
    k0_pay1 (k0_pay2 x0) (k0_pay3 x0) (k0_pay4 x0) (k0_pay5 x0) (k0_pay6 x0) 7#32 (ix2 p q)
      = Spec.vote (x0 (ix2 p q)) (x0 (ix2 p (Spec.prevLane q))) := by
  unfold k0_pay1 k0_pay4 k0_pay5 k0_pay6 k0_pay3 k0_pay2
  simp only [shrui, shli, ori, andi, broadcast, IntOp.ori, IntOp.andi]
  rw [show dynamicRotate 1 1#32 none x0 rotates_S1024x256_d1 (ix2 p q) = x0 (ix2 p (Spec.prevLane q)) from rotate_apply x0 p q]
  simp (disch := decide) only [vshrui_lit, vshli_lit]
  rfl

end Cert.KernelIdeal.Word

end
-- ==== Proof.KernelWhole.lean ====
/-
  The kernel's result array as one function of its argument. The grid has two points; point `t` stages rows
  `1024·t … 1024·t + 1023` of the input, all 256 lanes, and writes the same rows of the output. A row's neighbour lane lies
  in the same row, hence in the same block, so what point `t` writes back is block `t` of `Spec.G` of the whole input;
  the two blocks tile the output, which therefore ends as `Spec.G` of the input everywhere.
-/
import proofs.«404971_j67250597921093_3_alg».proof.Proof.Gen.KernelIdeal.Value
import proofs.«404971_j67250597921093_3_alg».proof.Proof.KernelWord

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- The two windows' block indices at point `t`, decided over the grid: both are (t, 0). -/
theorem index_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) = t.val ∧ t.val ≤ 1 :=
  (by decide +kernel : ∀ t : Fin grid0.N, _)

/-- Over plain arrays: if a 1024-row block `x0` is rows `R0 …` of the array `X`, the body's stored value at an element of
    the block is `Spec.G X` at the array index of that element. -/
theorem stored_eq_G (X : IVec S2048x256 32) (x0 : Vec F S1024x256 .i32) (R0 : Nat) (hR : R0 + 1024 ≤ 2048)
    (hx : ∀ (p : Fin 1024) (q : Fin 256), x0 (ix2 p q) = X (ix2 (⟨R0 + p.val, by have := p.isLt; omega⟩ : Fin 2048) q))
    (y : S1024x256.Idx) (i : S2048x256.Idx) (h0 : (i 0).val = R0 + (y 0).val) (h1 : (i 1).val = (y 1).val) :
    k0_pay1 (k0_pay2 x0) (k0_pay3 x0) (k0_pay4 x0) (k0_pay5 x0) (k0_pay6 x0) 7#32 y = Spec.G X i := by
  obtain ⟨p, q, rfl⟩ : ∃ (p : Fin 1024) (q : Fin 256), y = ix2 p q := ⟨y 0, y 1, eq_ix2 y⟩
  have hi : i = ix2 (⟨R0 + p.val, by have := p.isLt; omega⟩ : Fin 2048) q := by
    funext a
    match a with
    | ⟨0, _⟩ => exact Fin.ext h0
    | ⟨1, _⟩ => exact Fin.ext h1
  rw [hi, Spec.G_apply, Word.payload_apply, hx, hx]

/-- WHAT POINT `t` WRITES BACK is block `t` of `Spec.G` of the input array as the region finds it. -/
theorem flushed_eq (c : Dev nD) (t : Fin cfg0.N) :
    (dats m 0 c).flushed 1 t = ((cfg0.win 1).blk t).view.read (Elt F) (Spec.G (V m c main_arg0)) := by
  rw [Value.flushed1]
  unfold out0_1
  rw [View.canon_unit_zero origin]
  simp only [View.ld_unit_zero (S := S1024x256) origin]
  obtain ⟨e0, e1, e2, e3, e4⟩ := index_facts t
  funext j
  refine stored_eq_G (F := F) (V m c main_arg0) (iblk m c 0 t) (win0_1.index t (0 : Fin 2) * 1024) (by omega) ?_ j
    (((cfg0.win 1).blk t).view.emb j) ?_ ?_
  · intro p q
    show V m c main_arg0 (((cfg0.win 0).blk t).view.emb (ix2 p q)) = V m c main_arg0 _
    refine congrArg _ (funext fun a => Fin.ext ?_)
    match a with
    | ⟨0, _⟩ => show win0_0.index t (0 : Fin 2) * 1024 + 1 * p.val = win0_1.index t (0 : Fin 2) * 1024 + p.val; omega
    | ⟨1, _⟩ => show win0_0.index t (1 : Fin 2) * 256 + 1 * q.val = q.val; omega
  · show win0_1.index t (0 : Fin 2) * 1024 + 1 * (j 0).val = win0_1.index t (0 : Fin 2) * 1024 + (j 0).val; omega
  · show win0_1.index t (1 : Fin 2) * 256 + 1 * (j 1).val = (j 1).val; omega

/-- An index of the output array is in point `t`'s block iff each coordinate is in the block's range on its axis. -/
theorem mem_blk (t : Fin cfg0.N) (i : S2048x256.Idx) :
    i ∈ ((cfg0.win 1).blk t).view.set ↔ ∀ a : Fin 2, win0_1.index t a * S1024x256.size a ≤ (i a).val
      ∧ (i a).val < win0_1.index t a * S1024x256.size a + S1024x256.size a := by
  show i ∈ ((View.whole main_v0).slice (win0_1.rect t)).set ↔ _
  rw [View.set_slice_whole, Rect.mem_set_unit]
  exact Iff.rfl

/-- The two blocks tile the output: row `r` is in the block of point `r / 1024`. -/
theorem cover (i : S2048x256.Idx) : ∃ t : Fin cfg0.N, (cfg0.win 1).flush t = true ∧ i ∈ ((cfg0.win 1).blk t).view.set := by
  have hi0 : (i 0).val < 2048 := (i 0).isLt
  have hi1 : (i 1).val < 256 := (i 1).isLt
  let t : Fin cfg0.N := ⟨(i 0).val / 1024, by show (i 0).val / 1024 < 2; omega⟩
  obtain ⟨e0, e1, e2, e3, e4⟩ := index_facts t
  have e3' : win0_1.index t (0 : Fin 2) = (i 0).val / 1024 := e3
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 256 ≤ (i 1).val ∧ (i 1).val < win0_1.index t (1 : Fin 2) * 256 + 256; omega

/-- THE OUTPUT ARRAY after the run is `Spec.G` of the input array. -/
theorem final (c : Dev nD) : (dats m 0 c).arrAt 1 cfg0.N = Spec.G (m ((c : Thread nD τ).loc main_arg0)) :=
  ((dats m 0 c).arrAt_eq_of_cover 1 (Spec.G (V m c main_arg0)) (fun t _ => flushed_eq m c t) cover).trans
    (by rw [V_main_arg0])

/-- The kernel's run with its result named: the output array ends as `Spec.G` of the input, the input unchanged. -/
theorem run : θ_run defs (onTc (τ := τ) (main (F := F))) ⟨m, fun _ => 0, ρ⟩ fun r => ∀ c : Dev nD,
      r.2.mem ((c : Thread nD τ).loc main_v0) = Spec.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefRun.lean ====
/-
  The reference's run, stated over its stages. The reference's @main is a straight line of 91 host operations; every weakly
  fair execution runs them in order, so each buffer ends at the fold of the operations' results over the launch contents.
  That fold is read here in six stretches, cut where few values are live — the bit stream (`main_v12`), its nine rolled
  copies (`main_v13 … main_v21`), their stack (`main_v31`), the packed words (`main_v41`), the first majority layer
  (`main_v53`), the result (`main_v66`) —: after each stretch the live buffers hold the stages `val_…` of the input
  array, given that they did before it. Composed, the result buffer ends at `val_main_v66` of the input array.
-/
import proofs.«404971_j67250597921093_3_alg».proof.Proof.RefOps
import proofs.«404971_j67250597921093_3_alg».proof.Proof.RefRead

set_option maxRecDepth 8192

noncomputable section

namespace Cert.ReferenceIdeal.StageRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The six stretches of the operation list -/

/-- Operations 1–16: the shift amounts and the bit stream. -/
def stA : List (HloOp τ sig (Elt F)) := (ops (F := F)).take 16
/-- Operations 17–43: the nine rolls of the stream. -/
def stB : List (HloOp τ sig (Elt F)) := ((ops (F := F)).drop 16).take 27
/-- Operations 44–53: the nine copies stacked. -/
def stC : List (HloOp τ sig (Elt F)) := ((ops (F := F)).drop 43).take 10
/-- Operations 54–66: the copies packed into words. -/
def stD : List (HloOp τ sig (Elt F)) := ((ops (F := F)).drop 53).take 13
/-- Operations 67–78: the first majority layer. -/
def stE : List (HloOp τ sig (Elt F)) := ((ops (F := F)).drop 66).take 12
/-- Operations 79–91: the second majority layer and the result. -/
def stF : List (HloOp τ sig (Elt F)) := (ops (F := F)).drop 78

theorem ops_split : (ops : List (HloOp τ sig (Elt F))) = stA ++ (stB ++ (stC ++ (stD ++ (stE ++ stF)))) := rfl

/-! ## Each stretch, from the stages before it to the stages after it -/

/-- Unfolds a stretch to its literal operations and folds their results to the operations' functions of what the
    stretch finds, the typed references' transports (identities) cleared. -/
local macro "read_stretch" : tactic => `(tactic| (
  simp only [stA, stB, stC, stD, stE, stF, ops, List.take_succ_cons, List.take_zero, List.drop_succ_cons, List.drop_zero]
  after_results
  try simp only [TRef.ofBuf, TRef.toBuf, TRef.of, cast_eq]))

/-- Continues the fold of operation results after a step that exposed more of them: each operation's result at its own
    buffer is its function's value, at any other buffer what was there. -/
local macro "fold_results" : tactic => `(tactic| (repeat (first
  | rw [nullary_result] | rw [unary_result] | rw [binary_result] | rw [reshape_result] | rw [nary_result]
  | (rw [nullary_result_ne]; rotate_left; decide)
  | (rw [unary_result_ne]; rotate_left; decide)
  | (rw [binary_result_ne]; rotate_left; decide)
  | (rw [reshape_result_ne]; rotate_left; decide)
  | (rw [nary_result_ne]; rotate_left; decide))))

theorem stageA (W : Valuation τ sig (Elt F)) (x0 : (⟨S2048x256, .i32⟩ : BufTy).Contents (Elt F))
    (h0 : W (Proc.devRef .tc main_arg0) = x0) :
    after stA W (Proc.devRef .tc main_v12) = val_main_v12 x0 := by
  subst h0
  read_stretch
  rfl

theorem stageB13 (W : Valuation τ sig (Elt F)) (x0 : (⟨S2048x256, .i32⟩ : BufTy).Contents (Elt F))
    (h : W (Proc.devRef .tc main_v12) = val_main_v12 x0) :
    after stB W (Proc.devRef .tc main_v13) = val_main_v13 x0 := by
  read_stretch
  rw [h]
  rfl

theorem stageB14 (W : Valuation τ sig (Elt F)) (x0 : (⟨S2048x256, .i32⟩ : BufTy).Contents (Elt F))
    (h : W (Proc.devRef .tc main_v12) = val_main_v12 x0) :
    after stB W (Proc.devRef .tc main_v14) = val_main_v14 x0 := by
  read_stretch
  rw [h]
  rfl

theorem stageB15 (W : Valuation τ sig (Elt F)) (x0 : (⟨S2048x256, .i32⟩ : BufTy).Contents (Elt F))
    (h : W (Proc.devRef .tc main_v12) = val_main_v12 x0) :
    after stB W (Proc.devRef .tc main_v15) = val_main_v15 x0 := by
  read_stretch
  rw [h]
  rfl

theorem stageB16 (W : Valuation τ sig (Elt F)) (x0 : (⟨S2048x256, .i32⟩ : BufTy).Contents (Elt F))
    (h : W (Proc.devRef .tc main_v12) = val_main_v12 x0) :
    after stB W (Proc.devRef .tc main_v16) = val_main_v16 x0 := by
  read_stretch
  rw [h]
  rfl

theorem stageB17 (W : Valuation τ sig (Elt F)) (x0 : (⟨S2048x256, .i32⟩ : BufTy).Contents (Elt F))
    (h : W (Proc.devRef .tc main_v12) = val_main_v12 x0) :
    after stB W (Proc.devRef .tc main_v17) = val_main_v17 x0 := by
  read_stretch
  rw [h]
  rfl

theorem stageB18 (W : Valuation τ sig (Elt F)) (x0 : (⟨S2048x256, .i32⟩ : BufTy).Contents (Elt F))
    (h : W (Proc.devRef .tc main_v12) = val_main_v12 x0) :
    after stB W (Proc.devRef .tc main_v18) = val_main_v18 x0 := by
  read_stretch
  rw [h]
  rfl

theorem stageB19 (W : Valuation τ sig (Elt F)) (x0 : (⟨S2048x256, .i32⟩ : BufTy).Contents (Elt F))
    (h : W (Proc.devRef .tc main_v12) = val_main_v12 x0) :
    after stB W (Proc.devRef .tc main_v19) = val_main_v19 x0 := by
  read_stretch
  rw [h]
  rfl

theorem stageB20 (W : Valuation τ sig (Elt F)) (x0 : (⟨S2048x256, .i32⟩ : BufTy).Contents (Elt F))
    (h : W (Proc.devRef .tc main_v12) = val_main_v12 x0) :
    after stB W (Proc.devRef .tc main_v20) = val_main_v20 x0 := by
  read_stretch
  rw [h]
  rfl

theorem stageB21 (W : Valuation τ sig (Elt F)) (x0 : (⟨S2048x256, .i32⟩ : BufTy).Contents (Elt F))
    (h : W (Proc.devRef .tc main_v12) = val_main_v12 x0) :
    after stB W (Proc.devRef .tc main_v21) = val_main_v21 x0 := by
  read_stretch
  rw [h]
  rfl

set_option maxHeartbeats 4000000 in
theorem stageC (W : Valuation τ sig (Elt F)) (x0 : (⟨S2048x256, .i32⟩ : BufTy).Contents (Elt F))
    (h13 : W (Proc.devRef .tc main_v13) = val_main_v13 x0)
    (h14 : W (Proc.devRef .tc main_v14) = val_main_v14 x0)
    (h15 : W (Proc.devRef .tc main_v15) = val_main_v15 x0)
    (h16 : W (Proc.devRef .tc main_v16) = val_main_v16 x0)
    (h17 : W (Proc.devRef .tc main_v17) = val_main_v17 x0)
    (h18 : W (Proc.devRef .tc main_v18) = val_main_v18 x0)
    (h19 : W (Proc.devRef .tc main_v19) = val_main_v19 x0)
    (h20 : W (Proc.devRef .tc main_v20) = val_main_v20 x0)
    (h21 : W (Proc.devRef .tc main_v21) = val_main_v21 x0) :
    after stC W (Proc.devRef .tc main_v31) = val_main_v31 x0 := by
  simp only [stC, ops, List.take_succ_cons, List.take_zero, List.drop_succ_cons, List.drop_zero]
  after_results
  dsimp only [Matrix.cons_val]
  fold_results
  rw [h13, h14, h15, h16, h17, h18, h19, h20, h21]
  rfl

set_option maxHeartbeats 4000000 in
theorem stageD (W : Valuation τ sig (Elt F)) (x0 : (⟨S2048x256, .i32⟩ : BufTy).Contents (Elt F))
    (h : W (Proc.devRef .tc main_v31) = val_main_v31 x0) :
    after stD W (Proc.devRef .tc main_v41) = val_main_v41 x0 := by
  read_stretch
  rw [h]
  rfl

set_option maxHeartbeats 4000000 in
theorem stageE (W : Valuation τ sig (Elt F)) (x0 : (⟨S2048x256, .i32⟩ : BufTy).Contents (Elt F))
    (h : W (Proc.devRef .tc main_v41) = val_main_v41 x0) :
    after stE W (Proc.devRef .tc main_v53) = val_main_v53 x0 := by
  read_stretch
  rw [h]
  rfl

set_option maxHeartbeats 4000000 in
theorem stageF (W : Valuation τ sig (Elt F)) (x0 : (⟨S2048x256, .i32⟩ : BufTy).Contents (Elt F))
    (h : W (Proc.devRef .tc main_v53) = val_main_v53 x0) :
    after stF W (Proc.devRef .tc main_v66) = val_main_v66 x0 := by
  read_stretch
  rw [h]
  rfl

/-! ## The whole line -/

/-- From any contents whose input buffer holds `x0`, the 91 operations leave the result buffer at the last stage of `x0`. -/
theorem result_eq (V : Valuation τ sig (Elt F)) (x0 : (⟨S2048x256, .i32⟩ : BufTy).Contents (Elt F))
    (h0 : V (Proc.devRef .tc main_arg0) = x0) :
    after ops V (Proc.devRef .tc main_v66) = val_main_v66 x0 := by
  rw [ops_split]
  simp only [StableHlo.after_append]
  have hA := stageA V x0 h0
  have hC := stageC (after stB (after stA V)) x0 (stageB13 _ x0 hA) (stageB14 _ x0 hA) (stageB15 _ x0 hA) (stageB16 _ x0 hA)
    (stageB17 _ x0 hA) (stageB18 _ x0 hA) (stageB19 _ x0 hA) (stageB20 _ x0 hA) (stageB21 _ x0 hA)
  exact stageF _ x0 (stageE _ x0 (stageD _ x0 hC))

set_option maxHeartbeats 4000000 in
/-- No operation writes the input buffer. -/
theorem arg_kept (V : Valuation τ sig (Elt F)) :
    after ops V (Proc.devRef .tc main_arg0) = V (Proc.devRef .tc main_arg0) := by
  after_results_simp

set_option maxRecDepth 8192 in
set_option maxHeartbeats 36400000 in
/-- THE REFERENCE'S RUN: on every device, from any memory with zero counters, every weakly fair execution of @main
    terminates with the result buffer at the last stage of the input array and the input array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = val_main_v66 (m ((c.tc : Thread nD τ).loc main_arg0))
      ∧ r.2.mem ((c.tc : Thread nD τ).loc main_arg0) = m ((c.tc : Thread nD τ).loc main_arg0) :=
  (θ_run defs _ _).mono (fun _ h c => ⟨(h c main_v66).trans (result_eq _ _ rfl), (h c main_arg0).trans (arg_kept _)⟩)
    (run_seq scopedRefs_eq scopedSems_eq defs main (fun _ => ops) main_eq (fun _ => ops_sub) m ρ)

end Cert.ReferenceIdeal.StageRun

end
-- ==== Proof.RefRoll.lean ====
/-
  The nine rolled copies of the bit stream, read at a position. `jnp.roll` by `s` along a row of 8192 positions is
  printed as the row's last `s` positions followed by its first `8192 - s`: position `j` of the result is position
  `j - s` of the row when `s ≤ j` and position `8192 - s + j` otherwise, that is position `(j + 8192 - s) mod 8192`.
  The nine copies are then stacked along a new middle axis, copy `s` at coordinate `s`.
-/
import proofs.«404971_j67250597921093_3_alg».proof.Proof.RefRead
import Idealize.ShloMosaic.Lib.ValueIdx

noncomputable section

namespace Cert.ReferenceIdeal.Roll

open Cert.ReferenceIdeal Cert.ReferenceIdeal.ReadP Idealize.ShloMosaic Idealize.ShloMosaic.ValueIdx

variable {F : FTy → Type} [FloatOps F]

/-- Where position `j` of a row rolled right by `s` comes from. -/
def src (s : Nat) (j : Fin 8192) : Fin 8192 := ⟨(j.val + 8192 - s) % 8192, Nat.mod_lt _ (by decide)⟩

/-- A ROLL AS PRINTED, at any amount `0 < s ≤ 8192`: the tail slice of length `s` joined in front of the head slice. -/
theorem roll_apply {α : Type} (s : Nat) (hs : s ≤ 8192) (x : (⟨2, ![2048, 8192]⟩ : Shape).Idx → α)
    (h1 : (⟨2, ![2048, 8192]⟩ : Shape).Slices ![0, 8192 - s] ⟨2, ![2048, s]⟩)
    (h2 : (⟨2, ![2048, 8192]⟩ : Shape).Slices ![0, 0] ⟨2, ![2048, 8192 - s]⟩)
    (hc : Shape.Concatenates [(⟨2, ![2048, s]⟩ : Shape), ⟨2, ![2048, 8192 - s]⟩] ⟨2, ![2048, 8192]⟩ 1)
    (r : Fin 2048) (j : Fin 8192) :
    concatenate ⟨2, ![2048, 8192]⟩ 1
        [⟨⟨2, ![2048, s]⟩, extractStridedSlice ⟨2, ![2048, s]⟩ ![0, 8192 - s] x h1⟩,
         ⟨⟨2, ![2048, 8192 - s]⟩, extractStridedSlice ⟨2, ![2048, 8192 - s]⟩ ![0, 0] x h2⟩] hc (ix2 r j)
      = x (ix2 r (src s j)) := by
  have hj := j.isLt
  by_cases hlt : j.val < s
  · refine (concatenate_pair_apply_left (t := ⟨2, ![2048, 8192]⟩) (s₁ := ⟨2, ![2048, s]⟩) (s₂ := ⟨2, ![2048, 8192 - s]⟩)
      (1 : Fin 2) _ _ hc (ix2 r j) rfl (ix2 r (⟨j.val, hlt⟩ : Fin s)) (fun b => ?_)).trans ?_
    · match b with
      | ⟨0, _⟩ => rfl
      | ⟨1, _⟩ => rfl
    · refine extractStridedSlice_apply ![0, 8192 - s] x h1 (ix2 r (⟨j.val, hlt⟩ : Fin s)) (ix2 r (src s j)) (fun a => ?_)
      match a with
      | ⟨0, _⟩ => show r.val = 0 + r.val; omega
      | ⟨1, _⟩ => show (j.val + 8192 - s) % 8192 = (8192 - s) + j.val; omega
  · refine (concatenate_pair_apply_right (t := ⟨2, ![2048, 8192]⟩) (s₁ := ⟨2, ![2048, s]⟩) (s₂ := ⟨2, ![2048, 8192 - s]⟩)
      (1 : Fin 2) _ _ hc (ix2 r j) rfl rfl
      (ix2 r (⟨j.val - s, by omega⟩ : Fin (8192 - s))) (fun b hb => ?_) ?_).trans ?_
    · match b with
      | ⟨0, _⟩ => rfl
      | ⟨1, _⟩ => exact absurd rfl hb
    · show (j.val - s) + s = j.val; omega
    · refine extractStridedSlice_apply ![0, 0] x h2 (ix2 r (⟨j.val - s, by omega⟩ : Fin (8192 - s))) (ix2 r (src s j)) (fun a => ?_)
      match a with
      | ⟨0, _⟩ => show r.val = 0 + r.val; omega
      | ⟨1, _⟩ => show (j.val + 8192 - s) % 8192 = 0 + (j.val - s); omega

end Cert.ReferenceIdeal.Roll

end
-- ==== Proof.LibBitPack.lean ====
/-
  Words from bits. A 32-bit word is a sum of its single-bit words: the word `bitWord b <<< j` has bit `j` set exactly
  when `b` holds, words with disjoint bits add without a carry (their sum is their bitwise or), so a sum of such words over
  distinct positions has at position `j` the bit that was put there. Read with the most significant bit first — term `k`
  placed at position `31 - k`, which is how the reference packs a bit stream — the sum of the stream's 32 bits from offset
  `32·w - s` on is the word `w` shifted right by `s` with the low `s` bits of the word before it moved in at the top.
-/
import Idealize.ShloMosaic.PureOps.Reduce

namespace Cert.BitPack

open Idealize.ShloMosaic

/-- The word 1 when `b` holds, the word 0 otherwise. -/
def bitWord (b : Bool) : BitVec 32 := if b then 1#32 else 0#32

/-- `bitWord b` moved to position `n` has bit `i` set exactly when `i = n` (a position of the word) and `b` holds. -/
theorem getLsbD_bitWord_shiftLeft (b : Bool) (n i : Nat) :
    (bitWord b <<< n).getLsbD i = (decide (i < 32) && decide (i = n) && b) := by
  rw [BitVec.getLsbD_shiftLeft]
  cases b
  · simp [bitWord]
  · simp only [bitWord, if_true, BitVec.getLsbD_one, Bool.and_true]
    by_cases h32 : i < 32 <;> by_cases hn : i = n
    · subst hn; simp [h32]
    · by_cases hlt : i < n
      · simp [h32, hn, hlt]
      · have : ¬ (i - n = 0) := by omega
        simp [h32, hn, hlt, this]
    · simp [h32]
    · simp [h32]

/-- Bits placed at the positions `0 … n-1` and summed: position `i` of the sum holds bit `i`, and nothing sits at or above `n`. -/
theorem getLsbD_fold_range (c : Nat → Bool) (n : Nat) (hn : n ≤ 32) (i : Nat) :
    ((Finset.range n).fold IntOp.addi 0#32 (fun j => bitWord (c j) <<< j)).getLsbD i = (decide (i < n) && c i) := by
  induction n generalizing i with
  | zero => simp
  | succ n ih =>
    have ih' := fun j => ih (by omega) j
    rw [Finset.range_add_one, Finset.fold_insert Finset.notMem_range_self]
    show (bitWord (c n) <<< n + (Finset.range n).fold IntOp.addi 0#32 (fun j => bitWord (c j) <<< j)).getLsbD i = _
    have hdisj : bitWord (c n) <<< n &&& (Finset.range n).fold IntOp.addi 0#32 (fun j => bitWord (c j) <<< j) = 0#32 := by
      apply BitVec.eq_of_getLsbD_eq
      intro j _
      rw [BitVec.getLsbD_and, getLsbD_bitWord_shiftLeft, ih' j, BitVec.getLsbD_zero]
      by_cases hjn : j = n
      · subst hjn; simp
      · simp [hjn]
    rw [BitVec.add_eq_or_of_and_eq_zero _ _ hdisj, BitVec.getLsbD_or, getLsbD_bitWord_shiftLeft, ih' i]
    rcases Nat.lt_trichotomy i n with h | h | h
    · have h1 : i ≠ n := by omega
      have h2 : i < n + 1 := by omega
      simp [h, h1, h2]
    · subst h
      have h32 : i < 32 := by omega
      simp [h32]
    · have h1 : i ≠ n := by omega
      have h2 : ¬ i < n + 1 := by omega
      have h3 : ¬ i < n := by omega
      simp [h1, h2, h3]

/-- Position `k` of 32, counted from the most significant end, is position `31 - k` counted from the least. -/
private def msbPos (k : Fin 32) : Nat := 31 - k.val

/-- The same with the most significant bit FIRST: term `k` of 32 is placed at position `31 - k`, so position `i` of the
    sum holds the bit of term `31 - i`. -/
theorem getLsbD_fold_msbFirst (c : Fin 32 → Bool) (i : Nat) (hi : i < 32) :
    ((Finset.univ : Finset (Fin 32)).fold IntOp.addi 0#32 (fun k => bitWord (c k) <<< (31 - k.val))).getLsbD i
      = c ⟨31 - i, by omega⟩ := by
  -- the bits by their position from the least significant end
  let c' : Nat → Bool := fun j => if h : j < 32 then c ⟨31 - j, by omega⟩ else false
  have himg : (Finset.univ : Finset (Fin 32)).image msbPos = Finset.range 32 := by decide
  have hinj : ∀ x ∈ (Finset.univ : Finset (Fin 32)), ∀ y ∈ (Finset.univ : Finset (Fin 32)), msbPos x = msbPos y → x = y := by
    intro x _ y _ h; apply Fin.ext; have := x.isLt; have := y.isLt; unfold msbPos at h; omega
  have hfun : (fun k : Fin 32 => bitWord (c k) <<< (31 - k.val)) = (fun j => bitWord (c' j) <<< j) ∘ msbPos := by
    funext k
    have hk := k.isLt
    show _ = bitWord (c' (31 - k.val)) <<< (31 - k.val)
    have : c' (31 - k.val) = c k := by
      show (if h : 31 - k.val < 32 then c ⟨31 - (31 - k.val), by omega⟩ else false) = c k
      rw [dif_pos (by omega)]
      exact congrArg c (Fin.ext (by show 31 - (31 - k.val) = k.val; omega))
    rw [this]
  rw [hfun, ← Finset.fold_image hinj, himg, getLsbD_fold_range c' 32 (Nat.le_refl _) i]
  show (decide (i < 32) && (if h : i < 32 then c ⟨31 - i, by omega⟩ else false)) = _
  rw [dif_pos hi]; simp [hi]

/-- THE PACKED ROLLED STREAM. A row's bit stream is its words' bits, most significant first; rolled right by `s` bits
    and cut into words again, word `w`'s bit `k` (from the most significant end) is the stream's bit `32·w + k - s`:
    bit `k - s` of the word `x` itself from `k = s` on, and before that bit `32 + k - s` of the word `p` before it.
    Packed by summing each bit moved to its place, that is `x` shifted right by `s` with `p`'s low `s` bits on top. -/
theorem pack_rolled (x p : BitVec 32) (s : Nat) (hs : s < 32) :
    (Finset.univ : Finset (Fin 32)).fold IntOp.addi 0#32
        (fun k => bitWord (if s ≤ k.val then x.getLsbD (31 - (k.val - s)) else p.getLsbD (31 - (32 + k.val - s))) <<< (31 - k.val))
      = x >>> s ||| p <<< (32 - s) := by
  apply BitVec.eq_of_getLsbD_eq
  intro i hi
  rw [getLsbD_fold_msbFirst _ i hi, BitVec.getLsbD_or, BitVec.getLsbD_ushiftRight, BitVec.getLsbD_shiftLeft]
  show (if s ≤ 31 - i then x.getLsbD (31 - (31 - i - s)) else p.getLsbD (31 - (32 + (31 - i) - s))) = _
  by_cases h : s ≤ 31 - i
  · rw [if_pos h]
    have e1 : 31 - (31 - i - s) = s + i := by omega
    have e2 : i < 32 - s := by omega
    simp [e1, e2]
  · rw [if_neg h]
    have e1 : 31 - (32 + (31 - i) - s) = i - (32 - s) := by omega
    have e2 : ¬ i < 32 - s := by omega
    have e3 : 32 ≤ s + i := by omega
    simp [e1, e2, hi, BitVec.getLsbD_of_ge x (s + i) e3]

/-- Rolled by nothing, the packed stream is the word itself. -/
theorem pack_unrolled (x : BitVec 32) :
    (Finset.univ : Finset (Fin 32)).fold IntOp.addi 0#32 (fun k => bitWord (x.getLsbD (31 - k.val)) <<< (31 - k.val)) = x := by
  apply BitVec.eq_of_getLsbD_eq
  intro i hi
  rw [getLsbD_fold_msbFirst _ i hi]
  show x.getLsbD (31 - (31 - i)) = _
  congr 1; omega

/-! ## The host's operations on one word -/

/-- The reference's shift amounts `31 - k`, as it computes them: `31 + (-1)·k` on 32-bit words. -/
theorem shamt_eq : ∀ k : Fin 32,
    IntOp.addi 31#32 (IntOp.muli 4294967295#32 (BitVec.ofNat 32 k.val)) = BitVec.ofNat 32 (31 - k.val) := by decide

/-- A shift left by an amount below the width is the shift. -/
theorem hostShli_ofNat (x : BitVec 32) (n : Nat) (hn : n < 32) : IntOp.shli .host x (BitVec.ofNat 32 n) = x <<< n := by
  have h : (BitVec.ofNat 32 n).toNat = n := by rw [BitVec.toNat_ofNat]; omega
  unfold IntOp.shli
  rw [if_pos (by rw [h]; exact hn), BitVec.shiftLeft_eq', h]

/-- One bit of a word, as the reference extracts it: the arithmetic shift right by `n`, masked by 1. -/
theorem hostBit_ofNat (x : BitVec 32) (n : Nat) (hn : n < 32) :
    IntOp.andi (IntOp.shrsi .host x (BitVec.ofNat 32 n)) 1#32 = bitWord (x.getLsbD n) := by
  have h : (BitVec.ofNat 32 n).toNat = n := by rw [BitVec.toNat_ofNat]; omega
  unfold IntOp.shrsi IntOp.andi
  rw [if_pos (by rw [h]; exact hn), BitVec.sshiftRight_eq', h]
  apply BitVec.eq_of_getLsbD_eq
  intro i hi
  rw [BitVec.getLsbD_and, BitVec.getLsbD_sshiftRight, BitVec.getLsbD_one]
  by_cases h0 : i = 0
  · subst h0
    have : ¬ (32 ≤ 0) := by omega
    cases hb : x.getLsbD n <;> simp [bitWord, hb, hn]
  · cases hb : x.getLsbD n <;> simp [bitWord, h0]

end Cert.BitPack
-- ==== Proof.RefWords.lean ====
/-
  The reference's packed words. The reference spreads each input word into its 32 bits (most significant first), lays a
  row's bits out as one stream of 8192, rolls the stream right by s = 0 … 8, stacks the nine copies, cuts each back into
  256 groups of 32 bits, moves bit `k` of a group to position `31 - k` and sums the group. Read at row `r`, copy `s`,
  lane `w`: bit `k` of the group is the stream's bit `32·w + k - s` (circularly), a bit of the input word at lane `w`
  when `s ≤ k` and of the word at lane `w - 1` otherwise; the sum has no carries, and is the word `Spec.rolled`.
-/
import proofs.«404971_j67250597921093_3_alg».proof.Proof.RefRead
import proofs.«404971_j67250597921093_3_alg».proof.Proof.RefRoll
import proofs.«404971_j67250597921093_3_alg».proof.Proof.LibBitPack
import proofs.«404971_j67250597921093_3_alg».proof.Proof.Spec

noncomputable section

namespace Cert.ReferenceIdeal.Words

open Cert.ReferenceIdeal Cert.ReferenceIdeal.Gen Cert.ReferenceIdeal.ReadP Cert.ReferenceIdeal.Roll Idealize.ShloMosaic Idealize.ShloMosaic.ValueIdx
open Cert.BitPack (bitWord)

variable {F : FTy → Type} [FloatOps F]
variable (x0 : (⟨S2048x256, .i32⟩ : BufTy).Contents (Elt F))

/-! ## The nine rolled copies and their stack -/

/-- Copy 0 is the stream itself: the whole row followed by an empty slice. -/
theorem copy0_apply (r : Fin 2048) (j : Fin 8192) : val_main_v13 x0 (ix2 r j) = val_main_v12 x0 (ix2 r j) := by
  unfold val_main_v13 val_main_call0_v0
  refine (concatenate_pair_apply_left (t := S2048x8192) (s₁ := S2048x8192) (s₂ := S2048x0) (1 : Fin 2) _ _
    concatenates_S2048x8192_S2048x0_S2048x8192_d1 (ix2 r j) rfl (ix2 r j) (fun b => rfl)).trans ?_
  exact extractStridedSlice_apply ![0, 0] _ slices_S2048x8192_S2048x8192_0_0 (ix2 r j) (ix2 r j) (fun a =>
    match a with
    | ⟨0, _⟩ => by show r.val = 0 + r.val; omega
    | ⟨1, _⟩ => by show j.val = 0 + j.val; omega)

theorem copy1_apply (r : Fin 2048) (j : Fin 8192) : val_main_v14 x0 (ix2 r j) = val_main_v12 x0 (ix2 r (src 1 j)) := by
  unfold val_main_v14 val_main_call1_v0 val_main_call1_v1
  exact roll_apply 1 (by decide) (val_main_v12 x0) _ _ _ r j

theorem copy2_apply (r : Fin 2048) (j : Fin 8192) : val_main_v15 x0 (ix2 r j) = val_main_v12 x0 (ix2 r (src 2 j)) := by
  unfold val_main_v15 val_main_call2_v0 val_main_call2_v1
  exact roll_apply 2 (by decide) (val_main_v12 x0) _ _ _ r j

theorem copy3_apply (r : Fin 2048) (j : Fin 8192) : val_main_v16 x0 (ix2 r j) = val_main_v12 x0 (ix2 r (src 3 j)) := by
  unfold val_main_v16 val_main_call3_v0 val_main_call3_v1
  exact roll_apply 3 (by decide) (val_main_v12 x0) _ _ _ r j

theorem copy4_apply (r : Fin 2048) (j : Fin 8192) : val_main_v17 x0 (ix2 r j) = val_main_v12 x0 (ix2 r (src 4 j)) := by
  unfold val_main_v17 val_main_call4_v0 val_main_call4_v1
  exact roll_apply 4 (by decide) (val_main_v12 x0) _ _ _ r j

theorem copy5_apply (r : Fin 2048) (j : Fin 8192) : val_main_v18 x0 (ix2 r j) = val_main_v12 x0 (ix2 r (src 5 j)) := by
  unfold val_main_v18 val_main_call5_v0 val_main_call5_v1
  exact roll_apply 5 (by decide) (val_main_v12 x0) _ _ _ r j

theorem copy6_apply (r : Fin 2048) (j : Fin 8192) : val_main_v19 x0 (ix2 r j) = val_main_v12 x0 (ix2 r (src 6 j)) := by
  unfold val_main_v19 val_main_call6_v0 val_main_call6_v1
  exact roll_apply 6 (by decide) (val_main_v12 x0) _ _ _ r j

theorem copy7_apply (r : Fin 2048) (j : Fin 8192) : val_main_v20 x0 (ix2 r j) = val_main_v12 x0 (ix2 r (src 7 j)) := by
  unfold val_main_v20 val_main_call7_v0 val_main_call7_v1
  exact roll_apply 7 (by decide) (val_main_v12 x0) _ _ _ r j

theorem copy8_apply (r : Fin 2048) (j : Fin 8192) : val_main_v21 x0 (ix2 r j) = val_main_v12 x0 (ix2 r (src 8 j)) := by
  unfold val_main_v21 val_main_call8_v0 val_main_call8_v1
  exact roll_apply 8 (by decide) (val_main_v12 x0) _ _ _ r j

/-- Rolled by nothing, a position comes from itself. -/
theorem src_zero (j : Fin 8192) : src 0 j = j := Fin.ext (by show (j.val + 8192 - 0) % 8192 = j.val; have := j.isLt; omega)

/-- Piece `k` of the stack: at middle coordinate `k` the stack reads its `k`-th operand (whose middle axis has extent 1). -/
theorem stack_piece (k : Nat) (hk : k < 9) (y : S2048x1x8192.Idx → Elt F .i32)
    (hy : [(⟨S2048x1x8192, val_main_v22 x0⟩ : (s : Shape) × (s.Idx → Elt F .i32)), ⟨S2048x1x8192, val_main_v23 x0⟩,
      ⟨S2048x1x8192, val_main_v24 x0⟩, ⟨S2048x1x8192, val_main_v25 x0⟩, ⟨S2048x1x8192, val_main_v26 x0⟩,
      ⟨S2048x1x8192, val_main_v27 x0⟩, ⟨S2048x1x8192, val_main_v28 x0⟩, ⟨S2048x1x8192, val_main_v29 x0⟩,
      ⟨S2048x1x8192, val_main_v30 x0⟩][k]'(by simpa using hk) = ⟨S2048x1x8192, y⟩)
    (r : Fin 2048) (j : Fin 8192) :
    val_main_v31 x0 (ix3 r (⟨k, hk⟩ : Fin 9) j) = y (ix3 r (0 : Fin 1) j) := by
  unfold val_main_v31
  refine concatenate_apply_piece (t := S2048x9x8192) (1 : Fin 3) _ _ (ix3 r (⟨k, hk⟩ : Fin 9) j) k (by simpa using hk)
    S2048x1x8192 y hy rfl k ?_ (ix3 r (0 : Fin 1) j) (fun b hb => ?_) ?_
  · interval_cases k <;> rfl
  · match b with
    | ⟨0, _⟩ => rfl
    | ⟨1, _⟩ => exact absurd rfl hb
    | ⟨2, _⟩ => rfl
  · show k + 0 = k; omega

/-- THE STACK: copy `s` at position `j` of row `r` is the stream's position `j - s`, circularly. -/
theorem stack_apply (r : Fin 2048) (s : Fin 9) (j : Fin 8192) :
    val_main_v31 x0 (ix3 r s j) = val_main_v12 x0 (ix2 r (src s.val j)) := by
  have hidx : ∀ i : S2048x1x8192.Idx, i = ix3 r (0 : Fin 1) j → idx_main_v22 i = ix2 r j := by
    intro i hi; subst hi; funext a; match a with | ⟨0, _⟩ => rfl | ⟨1, _⟩ => rfl
  match s with
  | ⟨0, h⟩ => rw [stack_piece x0 0 h (val_main_v22 x0) rfl r j, val_main_v22_apply, hidx _ rfl, copy0_apply, src_zero]
  | ⟨1, h⟩ => rw [stack_piece x0 1 h (val_main_v23 x0) rfl r j, val_main_v23_apply, show idx_main_v23 (ix3 r (0 : Fin 1) j) = ix2 r j from hidx _ rfl, copy1_apply]
  | ⟨2, h⟩ => rw [stack_piece x0 2 h (val_main_v24 x0) rfl r j, val_main_v24_apply, show idx_main_v24 (ix3 r (0 : Fin 1) j) = ix2 r j from hidx _ rfl, copy2_apply]
  | ⟨3, h⟩ => rw [stack_piece x0 3 h (val_main_v25 x0) rfl r j, val_main_v25_apply, show idx_main_v25 (ix3 r (0 : Fin 1) j) = ix2 r j from hidx _ rfl, copy3_apply]
  | ⟨4, h⟩ => rw [stack_piece x0 4 h (val_main_v26 x0) rfl r j, val_main_v26_apply, show idx_main_v26 (ix3 r (0 : Fin 1) j) = ix2 r j from hidx _ rfl, copy4_apply]
  | ⟨5, h⟩ => rw [stack_piece x0 5 h (val_main_v27 x0) rfl r j, val_main_v27_apply, show idx_main_v27 (ix3 r (0 : Fin 1) j) = ix2 r j from hidx _ rfl, copy5_apply]
  | ⟨6, h⟩ => rw [stack_piece x0 6 h (val_main_v28 x0) rfl r j, val_main_v28_apply, show idx_main_v28 (ix3 r (0 : Fin 1) j) = ix2 r j from hidx _ rfl, copy6_apply]
  | ⟨7, h⟩ => rw [stack_piece x0 7 h (val_main_v29 x0) rfl r j, val_main_v29_apply, show idx_main_v29 (ix3 r (0 : Fin 1) j) = ix2 r j from hidx _ rfl, copy7_apply]
  | ⟨8, h⟩ => rw [stack_piece x0 8 h (val_main_v30 x0) rfl r j, val_main_v30_apply, show idx_main_v30 (ix3 r (0 : Fin 1) j) = ix2 r j from hidx _ rfl, copy8_apply]

/-! ## The stream's bits, the terms of the sum, the packed word -/

/-- The shift amounts `31 - k`, as the reference computes them for unpacking … -/
theorem shamt_unpack (i : S32.Idx) : val_main_v4 (F := F) i = BitVec.ofNat 32 (31 - (i 0).val) := by
  rw [val_main_v4_apply, val_main_v3_apply, val_main_c_0_apply, val_main_v2_apply, val_main_v1_apply, val_main_c_apply,
    val_main_v0_apply]
  exact BitPack.shamt_eq (i 0)

/-- … and again for packing. -/
theorem shamt_pack (i : S32.Idx) : val_main_v36 (F := F) i = BitVec.ofNat 32 (31 - (i 0).val) := by
  rw [val_main_v36_apply, val_main_v35_apply, val_main_c_3_apply, val_main_v34_apply, val_main_v33_apply, val_main_c_2_apply,
    val_main_v32_apply]
  exact BitPack.shamt_eq (i 0)

/-- Position `j` of row `r`'s stream is bit `j % 32`, counted from the most significant end, of the row's word `j / 32`. -/
theorem bit_apply (r : Fin 2048) (j : Fin 8192) :
    val_main_v12 x0 (ix2 r j)
      = bitWord ((x0 (ix2 r (⟨j.val / 32, by have := j.isLt; omega⟩ : Fin 256))).getLsbD (31 - j.val % 32)) := by
  have hj := j.isLt
  have hr := r.isLt
  rw [val_main_v12_apply, val_main_v11_apply, val_main_v9_apply, val_main_v7_apply, val_main_v5_apply, val_main_v8_apply,
    val_main_v6_apply, shamt_unpack, val_main_v10_apply, val_main_c_1_apply]
  have e1 : idx_main_v5 (idx_main_v7 (idx_main_v12 (ix2 r j))) = ix2 r (⟨j.val / 32, by omega⟩ : Fin 256) := by
    funext a
    match a with
    | ⟨0, _⟩ => exact Fin.ext (by show (r.val * 8192 + j.val) / 8192 = r.val; omega)
    | ⟨1, _⟩ => exact Fin.ext (by show (r.val * 8192 + j.val) / 32 % 256 = j.val / 32; omega)
  have e2 : ((idx_main_v6 (idx_main_v8 (idx_main_v12 (ix2 r j)))) 0).val = j.val % 32 := by
    show (r.val * 8192 + j.val) % 32 = j.val % 32; omega
  rw [e1, e2]
  exact BitPack.hostBit_ofNat _ _ (by omega)

/-- The stream's bit `32·w + k - s` (circularly): of the word at lane `w` from `k = s` on, of the word before it below. -/
theorem rolled_bit (r : Fin 2048) (s : Fin 9) (w : Fin 256) (k : Fin 32) (hb : w.val * 32 + k.val < 8192) :
    val_main_v12 x0 (ix2 r (src s.val ⟨w.val * 32 + k.val, hb⟩))
      = bitWord (if s.val ≤ k.val then (x0 (ix2 r w)).getLsbD (31 - (k.val - s.val))
          else (x0 (ix2 r (Spec.prevLane w))).getLsbD (31 - (32 + k.val - s.val))) := by
  have hs := s.isLt; have hw := w.isLt; have hk := k.isLt
  rw [bit_apply]
  by_cases h : s.val ≤ k.val
  · rw [if_pos h]
    have hA : (⟨(src s.val ⟨w.val * 32 + k.val, hb⟩).val / 32, by have := (src s.val ⟨w.val * 32 + k.val, hb⟩).isLt; omega⟩ : Fin 256) = w :=
      Fin.ext (by show (w.val * 32 + k.val + 8192 - s.val) % 8192 / 32 = w.val; omega)
    have hB : (src s.val ⟨w.val * 32 + k.val, hb⟩).val % 32 = k.val - s.val := by
      show (w.val * 32 + k.val + 8192 - s.val) % 8192 % 32 = k.val - s.val; omega
    rw [hA, hB]
  · rw [if_neg h]
    have hA : (⟨(src s.val ⟨w.val * 32 + k.val, hb⟩).val / 32, by have := (src s.val ⟨w.val * 32 + k.val, hb⟩).isLt; omega⟩ : Fin 256) = Spec.prevLane w :=
      Fin.ext (by show (w.val * 32 + k.val + 8192 - s.val) % 8192 / 32 = (w.val + 255) % 256; omega)
    have hB : (src s.val ⟨w.val * 32 + k.val, hb⟩).val % 32 = 32 + k.val - s.val := by
      show (w.val * 32 + k.val + 8192 - s.val) % 8192 % 32 = 32 + k.val - s.val; omega
    rw [hA, hB]

/-- Term `k` of the sum for copy `s`, lane `w`: that bit, moved to position `31 - k`. -/
theorem term_apply (r : Fin 2048) (s : Fin 9) (w : Fin 256) (k : Fin 32) :
    val_main_v40 x0 (ix4 r s w k)
      = bitWord (if s.val ≤ k.val then (x0 (ix2 r w)).getLsbD (31 - (k.val - s.val))
          else (x0 (ix2 r (Spec.prevLane w))).getLsbD (31 - (32 + k.val - s.val))) <<< (31 - k.val) := by
  have hs := s.isLt; have hw := w.isLt; have hk := k.isLt; have hr := r.isLt
  rw [val_main_v40_apply, val_main_v39_apply, val_main_v38_apply, shamt_pack, val_main_v37_apply]
  have e1 : idx_main_v37 (ix4 r s w k) = ix3 r s (⟨w.val * 32 + k.val, by omega⟩ : Fin 8192) := by
    funext a
    match a with
    | ⟨0, _⟩ => exact Fin.ext (by show (((r.val * 9 + s.val) * 256 + w.val) * 32 + k.val) / 73728 = r.val; omega)
    | ⟨1, _⟩ => exact Fin.ext (by show (((r.val * 9 + s.val) * 256 + w.val) * 32 + k.val) / 8192 % 9 = s.val; omega)
    | ⟨2, _⟩ => exact Fin.ext (by show (((r.val * 9 + s.val) * 256 + w.val) * 32 + k.val) % 8192 = w.val * 32 + k.val; omega)
  rw [e1]
  show IntOp.shli .host (val_main_v31 x0 (ix3 r s (⟨w.val * 32 + k.val, by omega⟩ : Fin 8192))) (BitVec.ofNat 32 (31 - k.val)) = _
  rw [stack_apply, rolled_bit, BitPack.hostShli_ofNat _ _ (by omega)]

/-- THE PACKED WORD of copy `s` at row `r`, lane `w`: the input word at lane `w` shifted right by `s`, with the low `s`
    bits of the word at the lane before it on top. -/
theorem word_apply (r : Fin 2048) (s : Fin 9) (w : Fin 256) :
    val_main_v41 x0 (ix3 r s w) = Spec.rolled (x0 (ix2 r w)) (x0 (ix2 r (Spec.prevLane w))) s.val := by
  have hs := s.isLt
  have hred : S2048x9x256x32.Reduces [(3 : Fin 4)] S2048x9x256 := by decide
  unfold val_main_v41
  rw [Host.reduce_eq_fold_single IntOp.addi (val_main_v40 x0) (val_main_c_4 (F := F)) reducesTo_S2048x9x256x32_S2048x9x256_d3 hred h_S_ (ix3 r s w)]
  have hf : (val_main_v40 x0 ∘ hred.lift (ix3 r s w))
      = fun k : Fin 32 => bitWord (if s.val ≤ k.val then (x0 (ix2 r w)).getLsbD (31 - (k.val - s.val))
          else (x0 (ix2 r (Spec.prevLane w))).getLsbD (31 - (32 + k.val - s.val))) <<< (31 - k.val) := by
    funext k
    have hl : hred.lift (ix3 r s w) k = ix4 r s w k := by
      funext a
      match a with
      | ⟨0, _⟩ => rfl
      | ⟨1, _⟩ => rfl
      | ⟨2, _⟩ => rfl
      | ⟨3, _⟩ => rfl
    show val_main_v40 x0 (hred.lift (ix3 r s w) k) = _
    rw [hl]
    exact term_apply x0 r s w k
  rw [hf]
  exact BitPack.pack_rolled _ _ s.val (by omega)

end Cert.ReferenceIdeal.Words

end
-- ==== Proof.RefResult.lean ====
/-
  The reference's result. The nine packed words of a row and lane are regrouped three by three and combined by the bitwise
  majority, and the three results combined by the majority again; regrouping is a change of index only (copy `3·a + b` is
  member `b` of group `a`). With the packed words read as `Spec.rolled`, the result at row `r`, lane `w` is `Spec.vote` of the
  input's words at lanes `w` and `w - 1` of row `r`: the reference computes `Spec.G` of its input.
-/
import proofs.«404971_j67250597921093_3_alg».proof.Proof.RefWords

noncomputable section

namespace Cert.ReferenceIdeal.Result

open Cert.ReferenceIdeal Cert.ReferenceIdeal.Gen Cert.ReferenceIdeal.ReadP Cert.ReferenceIdeal.Words
open Idealize.ShloMosaic Idealize.ShloMosaic.ValueIdx

variable {F : FTy → Type} [FloatOps F]
variable (x0 : (⟨S2048x256, .i32⟩ : BufTy).Contents (Elt F))

/-- Rolled by nothing, a word is itself: nothing is shifted out, and the word before it, shifted left by the whole
    width, contributes nothing. -/
theorem rolled_zero (x p : BitVec 32) : Spec.rolled x p 0 = x := by
  apply BitVec.eq_of_getLsbD_eq
  intro i hi
  unfold Spec.rolled
  rw [BitVec.getLsbD_or, BitVec.getLsbD_ushiftRight, BitVec.getLsbD_shiftLeft]
  simp [hi]

/-- THE FIRST LAYER: group `a`'s majority is over the copies `3a`, `3a + 1`, `3a + 2`. -/
theorem layer1_apply (r : Fin 2048) (a : Fin 3) (w : Fin 256) (s0 s1 s2 : Fin 9)
    (h0 : s0.val = 3 * a.val) (h1 : s1.val = 3 * a.val + 1) (h2 : s2.val = 3 * a.val + 2) :
    val_main_v53 x0 (ix3 r a w)
      = Spec.maj3 (val_main_v41 x0 (ix3 r s0 w)) (val_main_v41 x0 (ix3 r s1 w)) (val_main_v41 x0 (ix3 r s2 w)) := by
  have ha := a.isLt; have hr := r.isLt; have hw := w.isLt
  have e0 : idx_main_v42 (idx_main_v43 (idx_main_v44 (ix3 r a w))) = ix3 r s0 w := by
    funext c
    match c with
    | ⟨0, _⟩ => exact Fin.ext (by dsimp only [idx_main_v42, idx_main_v43, idx_main_v44, ix3, ix4]; omega)
    | ⟨1, _⟩ => exact Fin.ext (by dsimp only [idx_main_v42, idx_main_v43, idx_main_v44, ix3, ix4]; omega)
    | ⟨2, _⟩ => exact Fin.ext (by dsimp only [idx_main_v42, idx_main_v43, idx_main_v44, ix3, ix4]; omega)
  have e1 : idx_main_v42 (idx_main_v45 (idx_main_v46 (ix3 r a w))) = ix3 r s1 w := by
    funext c
    match c with
    | ⟨0, _⟩ => exact Fin.ext (by dsimp only [idx_main_v42, idx_main_v45, idx_main_v46, ix3, ix4]; omega)
    | ⟨1, _⟩ => exact Fin.ext (by dsimp only [idx_main_v42, idx_main_v45, idx_main_v46, ix3, ix4]; omega)
    | ⟨2, _⟩ => exact Fin.ext (by dsimp only [idx_main_v42, idx_main_v45, idx_main_v46, ix3, ix4]; omega)
  have e2 : idx_main_v42 (idx_main_v47 (idx_main_v48 (ix3 r a w))) = ix3 r s2 w := by
    funext c
    match c with
    | ⟨0, _⟩ => exact Fin.ext (by dsimp only [idx_main_v42, idx_main_v47, idx_main_v48, ix3, ix4]; omega)
    | ⟨1, _⟩ => exact Fin.ext (by dsimp only [idx_main_v42, idx_main_v47, idx_main_v48, ix3, ix4]; omega)
    | ⟨2, _⟩ => exact Fin.ext (by dsimp only [idx_main_v42, idx_main_v47, idx_main_v48, ix3, ix4]; omega)
  rw [val_main_v53_apply, val_main_v51_apply, val_main_v49_apply, val_main_v50_apply, val_main_v52_apply,
    val_main_v44_apply, val_main_v43_apply, val_main_v42_apply, e0,
    val_main_v46_apply, val_main_v45_apply, val_main_v42_apply, e1,
    val_main_v48_apply, val_main_v47_apply, val_main_v42_apply, e2]
  rfl

/-- THE SECOND LAYER: the majority of the three groups. -/
theorem layer2_apply (r : Fin 2048) (z : Fin 1) (w : Fin 256) (a0 a1 a2 : Fin 3)
    (h0 : a0.val = 0) (h1 : a1.val = 1) (h2 : a2.val = 2) :
    val_main_v65 x0 (ix3 r z w)
      = Spec.maj3 (val_main_v53 x0 (ix3 r a0 w)) (val_main_v53 x0 (ix3 r a1 w)) (val_main_v53 x0 (ix3 r a2 w)) := by
  have hr := r.isLt; have hw := w.isLt; have hz := z.isLt
  have e0 : idx_main_v54 (idx_main_v55 (idx_main_v56 (ix3 r z w))) = ix3 r a0 w := by
    funext c
    match c with
    | ⟨0, _⟩ => exact Fin.ext (by dsimp only [idx_main_v54, idx_main_v55, idx_main_v56, ix3, ix4]; omega)
    | ⟨1, _⟩ => exact Fin.ext (by dsimp only [idx_main_v54, idx_main_v55, idx_main_v56, ix3, ix4]; omega)
    | ⟨2, _⟩ => exact Fin.ext (by dsimp only [idx_main_v54, idx_main_v55, idx_main_v56, ix3, ix4]; omega)
  have e1 : idx_main_v54 (idx_main_v57 (idx_main_v58 (ix3 r z w))) = ix3 r a1 w := by
    funext c
    match c with
    | ⟨0, _⟩ => exact Fin.ext (by dsimp only [idx_main_v54, idx_main_v57, idx_main_v58, ix3, ix4]; omega)
    | ⟨1, _⟩ => exact Fin.ext (by dsimp only [idx_main_v54, idx_main_v57, idx_main_v58, ix3, ix4]; omega)
    | ⟨2, _⟩ => exact Fin.ext (by dsimp only [idx_main_v54, idx_main_v57, idx_main_v58, ix3, ix4]; omega)
  have e2 : idx_main_v54 (idx_main_v59 (idx_main_v60 (ix3 r z w))) = ix3 r a2 w := by
    funext c
    match c with
    | ⟨0, _⟩ => exact Fin.ext (by dsimp only [idx_main_v54, idx_main_v59, idx_main_v60, ix3, ix4]; omega)
    | ⟨1, _⟩ => exact Fin.ext (by dsimp only [idx_main_v54, idx_main_v59, idx_main_v60, ix3, ix4]; omega)
    | ⟨2, _⟩ => exact Fin.ext (by dsimp only [idx_main_v54, idx_main_v59, idx_main_v60, ix3, ix4]; omega)
  rw [val_main_v65_apply, val_main_v63_apply, val_main_v61_apply, val_main_v62_apply, val_main_v64_apply,
    val_main_v56_apply, val_main_v55_apply, val_main_v54_apply, e0,
    val_main_v58_apply, val_main_v57_apply, val_main_v54_apply, e1,
    val_main_v60_apply, val_main_v59_apply, val_main_v54_apply, e2]
  rfl

/-- THE RESULT at row `r`, lane `w`: the vote of the input's words at lanes `w` and `w - 1`. -/
theorem result_apply (r : Fin 2048) (w : Fin 256) :
    val_main_v66 x0 (ix2 r w) = Spec.vote (x0 (ix2 r w)) (x0 (ix2 r (Spec.prevLane w))) := by
  have hr := r.isLt; have hw := w.isLt
  have e : idx_main_v66 (ix2 r w) = ix3 r (0 : Fin 1) w := by
    funext c
    match c with
    | ⟨0, _⟩ => exact Fin.ext (by show (r.val * 256 + w.val) / 256 = r.val; omega)
    | ⟨1, _⟩ => rfl
    | ⟨2, _⟩ => exact Fin.ext (by show (r.val * 256 + w.val) % 256 = w.val; omega)
  rw [val_main_v66_apply, e, layer2_apply x0 r 0 w 0 1 2 rfl rfl rfl,
    layer1_apply x0 r 0 w 0 1 2 rfl rfl rfl, layer1_apply x0 r 1 w 3 4 5 rfl rfl rfl, layer1_apply x0 r 2 w 6 7 8 rfl rfl rfl]
  simp only [word_apply]
  rw [show Spec.rolled (x0 (ix2 r w)) (x0 (ix2 r (Spec.prevLane w))) (0 : Fin 9).val = x0 (ix2 r w) from rolled_zero _ _]
  rfl

/-- THE REFERENCE COMPUTES `Spec.G`: its last stage, of any input array, is that function of the array. -/
theorem result_eq_G : val_main_v66 x0 = Spec.G x0 := by
  funext i
  obtain ⟨r, w, rfl⟩ : ∃ (r : Fin 2048) (w : Fin 256), i = ix2 r w := ⟨i 0, i 1, eq_ix2 i⟩
  rw [result_apply, Spec.G_apply]

end Cert.ReferenceIdeal.Result

end
-- ==== Proof.lean ====
/-
  Nine copies of each row's bit stream, the s-th rolled right by s bits, combined by a two-level bitwise majority vote.

  The kernel works on packed 32-bit words: for s = 1 … 8 it forms `x >>> s ||| neighbour <<< (32 - s)`, where `neighbour` is
  the word at the lane before (a rotation by one lane of a block that spans the whole row), and takes the majorities
  word by word. The reference spreads every word into its bits, rolls the 8192-bit stream of a row by concatenating its
  tail in front of its head, packs each group of 32 bits back into a word by summing the bits moved to their places, and
  takes the same majorities.

  Both are the ONE function `Spec.G` of the input array: at row `r`, lane `w`, `Spec.vote` of the input's words at lanes
  `w` and `w - 1` (mod 256) of row `r`.
  * Kernel (Proof/KernelWord.lean, Proof/KernelWhole.lean, over the generated frame and blockwise value leg): the body's
    stored value at an element is `Spec.vote` of the block's words at the element's lane and the lane before; the two grid
    points' blocks are the two halves of the rows and tile the output.
  * Reference (Proof/RefRun.lean over the stages of Proof/RefRead.lean; Proof/RefRoll.lean, Proof/RefWords.lean,
    Proof/RefResult.lean): its run ends at the last stage of its input; the stage read at an index is a sum of 32 single-bit
    words at distinct positions, which has no carries (Proof/LibBitPack.lean) and is the shifted pair of words.
  The claim holds for every input: the precondition (always true: the input is an integer array) is never opened, and the
  ideal pass rewrote nothing, so `preserves` is `True`.
-/
import proofs.«404971_j67250597921093_3_alg».proof.Defs
import proofs.«404971_j67250597921093_3_alg».proof.Proof.Gen.Kernel
import proofs.«404971_j67250597921093_3_alg».proof.Proof.Gen.Kernel.Skeleton
import proofs.«404971_j67250597921093_3_alg».proof.Proof.Gen.Kernel.Launch
import proofs.«404971_j67250597921093_3_alg».proof.Proof.Gen.Kernel.Points
import proofs.«404971_j67250597921093_3_alg».proof.Proof.Gen.Kernel.Frame
import proofs.«404971_j67250597921093_3_alg».proof.Proof.Gen.KernelIdeal
import proofs.«404971_j67250597921093_3_alg».proof.Proof.Gen.KernelIdeal.Skeleton
import proofs.«404971_j67250597921093_3_alg».proof.Proof.Gen.KernelIdeal.Launch
import proofs.«404971_j67250597921093_3_alg».proof.Proof.Gen.KernelIdeal.Points
import proofs.«404971_j67250597921093_3_alg».proof.Proof.Gen.KernelIdeal.Frame
import proofs.«404971_j67250597921093_3_alg».proof.Proof.Gen.ReferenceIdeal
import proofs.«404971_j67250597921093_3_alg».proof.Proof.Gen.Pre_any_inputs
import proofs.«404971_j67250597921093_3_alg».proof.Proof.Gen.KernelIdeal.Value
import proofs.«404971_j67250597921093_3_alg».proof.Proof.KernelWhole
import proofs.«404971_j67250597921093_3_alg».proof.Proof.RefRun
import proofs.«404971_j67250597921093_3_alg».proof.Proof.RefResult
import Idealize.ShloMosaic.Adequacy
import Idealize.ShloMosaic.Init

noncomputable section

namespace Cert.Proof

open Idealize.ShloMosaic Idealize.ShloMosaic.TcCoe Idealize.SL.Sem

/-- The kernel as printed runs and leaves its argument unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument unchanged: its run, the result forgotten. -/
theorem frame_reference : Cert.frame_ReferenceIdeal := fun m ρ _ =>
  (θ_run Cert.ReferenceIdeal.defs _ _).mono (fun _ h c => (h c).2) (Cert.ReferenceIdeal.StageRun.run (F := Ideal) m ρ)

/-- From inputs that agree, both programs end with `Spec.G` of the input in their result arrays. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.StageRun.run (F := Ideal) m' ρ')
  rw [Cert.ReferenceIdeal.Result.result_eq_G, hagree c]

theorem claim : Cert.Claim :=
  ⟨Cert.Kernel.Gen.facts, Cert.KernelIdeal.Gen.facts, Cert.ReferenceIdeal.Gen.facts, Cert.Pre_any_inputs.Gen.facts,
    frame_kernel, frame_kernelIdeal, frame_reference, trivial, algebraic⟩

end Cert.Proof

end
